-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x16 : Shape := ⟨2, ![100000, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel

variable [Facts]

def fn {F : FTy → Type} [FloatOps F] (main_arg0 : FVec F S100000x128 .f32) (main_arg1 : IVec S100000x16 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  main_v3
-- ==== Kernel.lean ====
abbrev S100000x128 : Shape := ⟨2, ![100000, 128]⟩
abbrev S100000x16 : Shape := ⟨2, ![100000, 16]⟩
abbrev S_ : Shape := ⟨0, ![]⟩
abbrev S100000x16x1 : Shape := ⟨3, ![100000, 16, 1]⟩
abbrev S100000x16x128 : Shape := ⟨3, ![100000, 16, 128]⟩
abbrev S1000x128 : Shape := ⟨2, ![1000, 128]⟩
abbrev S1000x16x128 : Shape := ⟨3, ![1000, 16, 128]⟩
abbrev S1000x1x128 : Shape := ⟨3, ![1000, 1, 128]⟩

abbrev nBuf : Space → Nat
  | .hbm => 12
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S100000x16, .i32⟩
  | .hbm, ⟨2, _⟩ => ⟨S_, .i32⟩
  | .hbm, ⟨3, _⟩ => ⟨S100000x16, .i32⟩
  | .hbm, ⟨4, _⟩ => ⟨S100000x16, .i1⟩
  | .hbm, ⟨5, _⟩ => ⟨S_, .i32⟩
  | .hbm, ⟨6, _⟩ => ⟨S100000x16, .i32⟩
  | .hbm, ⟨7, _⟩ => ⟨S100000x16, .i32⟩
  | .hbm, ⟨8, _⟩ => ⟨S100000x16, .i32⟩
  | .hbm, ⟨9, _⟩ => ⟨S100000x16x1, .i32⟩
  | .hbm, ⟨10, _⟩ => ⟨S100000x16x128, .f32⟩
  | .hbm, ⟨11, _⟩ => ⟨S100000x128, .f32⟩
  | .local _ .vmem, ⟨0, _⟩ => ⟨S1000x128, .f32⟩
  | .local _ .vmem, ⟨1, _⟩ => ⟨S1000x128, .f32⟩
  | .local _ .vmem, ⟨2, _⟩ => ⟨S1000x16x128, .f32⟩
  | .local _ .vmem, ⟨3, _⟩ => ⟨S1000x16x128, .f32⟩
  | .local _ .vmem, ⟨4, _⟩ => ⟨S1000x128, .f32⟩
  | .local _ .vmem, ⟨5, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  inb_S1000x128_S1000x128_0_0 : ∀ a, (![0, 0] : Fin 2 → Nat) a + S1000x128.size a ≤ S1000x128.size a
  h_S1000x128 : 0 < S1000x128.numel
  inb_S1000x16x128_S1000x1x128_0_0_0 : ∀ a, (![0, 0, 0] : Fin 3 → Nat) a + S1000x1x128.size a ≤ S1000x16x128.size a
  h_S1000x1x128 : 0 < S1000x1x128.numel
  shapeCasts_S1000x1x128_S1000x128 : S1000x1x128.ShapeCasts S1000x128
  inb_S1000x16x128_S1000x1x128_0_1_0 : ∀ a, (![0, 1, 0] : Fin 3 → Nat) a + S1000x1x128.size a ≤ S1000x16x128.size a
  inb_S1000x16x128_S1000x1x128_0_2_0 : ∀ a, (![0, 2, 0] : Fin 3 → Nat) a + S1000x1x128.size a ≤ S1000x16x128.size a
  inb_S1000x16x128_S1000x1x128_0_3_0 : ∀ a, (![0, 3, 0] : Fin 3 → Nat) a + S1000x1x128.size a ≤ S1000x16x128.size a
  inb_S1000x16x128_S1000x1x128_0_4_0 : ∀ a, (![0, 4, 0] : Fin 3 → Nat) a + S1000x1x128.size a ≤ S1000x16x128.size a
  inb_S1000x16x128_S1000x1x128_0_5_0 : ∀ a, (![0, 5, 0] : Fin 3 → Nat) a + S1000x1x128.size a ≤ S1000x16x128.size a
  inb_S1000x16x128_S1000x1x128_0_6_0 : ∀ a, (![0, 6, 0] : Fin 3 → Nat) a + S1000x1x128.size a ≤ S1000x16x128.size a
  inb_S1000x16x128_S1000x1x128_0_7_0 : ∀ a, (![0, 7, 0] : Fin 3 → Nat) a + S1000x1x128.size a ≤ S1000x16x128.size a
  inb_S1000x16x128_S1000x1x128_0_8_0 : ∀ a, (![0, 8, 0] : Fin 3 → Nat) a + S1000x1x128.size a ≤ S1000x16x128.size a
  inb_S1000x16x128_S1000x1x128_0_9_0 : ∀ a, (![0, 9, 0] : Fin 3 → Nat) a + S1000x1x128.size a ≤ S1000x16x128.size a
  inb_S1000x16x128_S1000x1x128_0_10_0 : ∀ a, (![0, 10, 0] : Fin 3 → Nat) a + S1000x1x128.size a ≤ S1000x16x128.size a
  inb_S1000x16x128_S1000x1x128_0_11_0 : ∀ a, (![0, 11, 0] : Fin 3 → Nat) a + S1000x1x128.size a ≤ S1000x16x128.size a
  inb_S1000x16x128_S1000x1x128_0_12_0 : ∀ a, (![0, 12, 0] : Fin 3 → Nat) a + S1000x1x128.size a ≤ S1000x16x128.size a
  inb_S1000x16x128_S1000x1x128_0_13_0 : ∀ a, (![0, 13, 0] : Fin 3 → Nat) a + S1000x1x128.size a ≤ S1000x16x128.size a
  inb_S1000x16x128_S1000x1x128_0_14_0 : ∀ a, (![0, 14, 0] : Fin 3 → Nat) a + S1000x1x128.size a ≤ S1000x16x128.size a
  inb_S1000x16x128_S1000x1x128_0_15_0 : ∀ a, (![0, 15, 0] : Fin 3 → Nat) a + S1000x1x128.size a ≤ S1000x16x128.size a
  gather_S100000x128_S100000x16x1_S100000x16x128_2_0_n_n_0_2_1128_wf : GatherDims.WF S100000x128 S100000x16x1 S100000x16x128 [2] [0] [] [0] [] 2 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x16x128.size a ≤ S100000x16x128.size a
  hwx0_1 : ∀ i : grid0.Coords, EltTy.bits .f32 = 32 ∨ (Rect.block (s := S100000x16x128) S1000x16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)

variable [Facts₀]

def gather_S100000x128_S100000x16x1_S100000x16x128_2_0_n_n_0_2_1128 : GatherDims S100000x128 S100000x16x1 S100000x16x128 where
  offsetDims := [2]
  collapsedSliceDims := [0]
  operandBatchingDims := []
  startIndicesBatchingDims := []
  startIndexMap := [0]
  indexVectorDim := 2
  sliceSizes := ![1, 128]
  wf := gather_S100000x128_S100000x16x1_S100000x16x128_2_0_n_n_0_2_1128_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1000x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S100000x16 : Shape := ⟨2, ![100000, 16]⟩
abbrev S_ : Shape := ⟨0, ![]⟩
abbrev S100000x16x1 : Shape := ⟨3, ![100000, 16, 1]⟩
abbrev S100000x16x128 : Shape := ⟨3, ![100000, 16, 128]⟩
abbrev S100000x1x128 : Shape := ⟨3, ![100000, 1, 128]⟩

abbrev nBuf : Space → Nat
  | .hbm => 24
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x16, .i32⟩
  | .hbm, ⟨2, _⟩ => ⟨S_, .i32⟩
  | .hbm, ⟨3, _⟩ => ⟨S100000x16, .i32⟩
  | .hbm, ⟨4, _⟩ => ⟨S100000x16, .i1⟩
  | .hbm, ⟨5, _⟩ => ⟨S_, .i32⟩
  | .hbm, ⟨6, _⟩ => ⟨S100000x16, .i32⟩
  | .hbm, ⟨7, _⟩ => ⟨S100000x16, .i32⟩
  | .hbm, ⟨8, _⟩ => ⟨S100000x16, .i32⟩
  | .hbm, ⟨9, _⟩ => ⟨S100000x16x1, .i32⟩
  | .hbm, ⟨10, _⟩ => ⟨S100000x16x128, .f32⟩
  | .hbm, ⟨11, _⟩ => ⟨S100000x1x128, .f32⟩
  | .hbm, ⟨12, _⟩ => ⟨S_, .f32⟩
  | .hbm, ⟨13, _⟩ => ⟨S100000x1x128, .f32⟩
  | .hbm, ⟨14, _⟩ => ⟨S100000x1x128, .f32⟩
  | .hbm, ⟨15, _⟩ => ⟨S100000x16x128, .f32⟩
  | .hbm, ⟨16, _⟩ => ⟨S100000x16x128, .f32⟩
  | .hbm, ⟨17, _⟩ => ⟨S100000x16x128, .f32⟩
  | .hbm, ⟨18, _⟩ => ⟨S100000x16x128, .f32⟩
  | .hbm, ⟨19, _⟩ => ⟨S_, .f32⟩
  | .hbm, ⟨20, _⟩ => ⟨S100000x128, .f32⟩
  | .hbm, ⟨21, _⟩ => ⟨S_, .f32⟩
  | .hbm, ⟨22, _⟩ => ⟨S100000x128, .f32⟩
  | .hbm, ⟨23, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  bcast_S100000x128_S100000x1x128_0_2 : S100000x128.BroadcastsInDim S100000x1x128 (![0, 2] : Fin 2 → Fin S100000x1x128.rank)
  bcast_S_S100000x1x128 : S_.BroadcastsInDim S100000x1x128 (![] : Fin 0 → Fin S100000x1x128.rank)
  bcast_S100000x1x128_S100000x16x128_0_1_2 : S100000x1x128.BroadcastsInDim S100000x16x128 (![0, 1, 2] : Fin 3 → Fin S100000x16x128.rank)
  reducesTo_S100000x16x128_S100000x128_d1 : S100000x16x128.ReducesTo [1] S100000x128
  h_S_ : 0 < S_.numel
  bcast_S_S100000x128 : S_.BroadcastsInDim S100000x128 (![] : Fin 0 → Fin S100000x128.rank)
  gather_S100000x128_S100000x16x1_S100000x16x128_2_0_n_n_0_2_1128_wf : GatherDims.WF S100000x128 S100000x16x1 S100000x16x128 [2] [0] [] [0] [] 2 ![1, 128]

variable [Facts₀]

def gather_S100000x128_S100000x16x1_S100000x16x128_2_0_n_n_0_2_1128 : GatherDims S100000x128 S100000x16x1 S100000x16x128 where
  offsetDims := [2]
  collapsedSliceDims := [0]
  operandBatchingDims := []
  startIndicesBatchingDims := []
  startIndexMap := [0]
  indexVectorDim := 2
  sliceSizes := ![1, 128]
  wf := gather_S100000x128_S100000x16x1_S100000x16x128_2_0_n_n_0_2_1128_wf

class Facts : Prop extends Facts₀ where

variable [Facts]
-- ==== Proof.NeighborCombine.lean ====
/-
  The value both programs compute, and the one algebraic law between their two arrangements.

  For a node `n` with feature row `x n` and sixteen gathered neighbour rows `u n k` (k < 16), the result at feature `d` is
      w · Σ_k ( (2 · x n d) · u n k d + u n k d · u n k d ),        w the f32 word nearest 1/48.
  One arrangement adds the sixteen summands `(2·x)·u_k + u_k²` directly; the other first forms the running sums
  s₁ = Σ_k u_k and s₂ = Σ_k u_k² (each started from 0 and extended one neighbour at a time) and then takes
  `(2·x)·s₁ + s₂`. On the extended reals the step  (2·x)·Σ_k u_k = Σ_k (2·x)·u_k  is distributivity, which fails at
  infinities (⊤·(1 + (−1)) = 0 but ⊤·1 + ⊤·(−1) = ⊥), so it is proved for REAL x and u_k: the coercion ℝ → EReal is pushed
  outward through products and finite sums, and the identity is `Finset.mul_sum` in ℝ. The outer weight `w` and the
  start value never need evaluating: they multiply, resp. start, the same quantity on both sides.
-/
import Idealize.ShloMosaic.PureOps.Ideal
import Idealize.ShloMosaic.PureOps.Ideal.Laws
import Idealize.ShloMosaic.Lib.ValueIdx

noncomputable section

open scoped BigOperators

namespace Cert.NeighborCombine

open Idealize.ShloMosaic Idealize.ShloMosaic.ValueIdx

/-- The node-feature array's shape, [100000, 128]. -/
abbrev NodeFeat : Shape := ⟨2, ![100000, 128]⟩
/-- The gathered-neighbour array's shape, [100000, 16, 128]. -/
abbrev NbrFeat : Shape := ⟨3, ![100000, 16, 128]⟩

/-- The f32 word of the literal 2.0, read as an extended real. -/
abbrev two : EReal := Ideal.ofBits .f32 0x40000000#32
/-- The f32 word nearest 1/48 (the weight (2/6)/16), read as an extended real; never evaluated. -/
abbrev wgt : EReal := Ideal.ofBits .f32 0x3CAAAAAB#32

/-- The literal 2.0 denotes the real number 2. -/
theorem two_eq : two = ((2 : ℝ) : EReal) := by
  show Ideal.ofBits .f32 0x40000000#32 = _
  simp [Ideal.ofBits, Ideal.ieee, -EReal.coe_mul]; norm_num

/-- Sixteen terms added one after another onto a start value `z`: `((z + f 0) + f 1) + … + f 15`. -/
def runningSum (z : EReal) (f : Fin 16 → EReal) : EReal :=
  z + f 0 + f 1 + f 2 + f 3 + f 4 + f 5 + f 6 + f 7 + f 8 + f 9 + f 10 + f 11 + f 12 + f 13 + f 14 + f 15

/-- Adding one term at a time is the sum over the sixteen positions (addition on the extended reals is associative and
    commutative; no finiteness is needed). -/
theorem runningSum_eq (z : EReal) (f : Fin 16 → EReal) : runningSum z f = z + ∑ k, f k := by
  unfold runningSum
  simp only [Fin.sum_univ_castSucc, Fin.sum_univ_zero, zero_add, add_assoc]
  rfl

/-- The coercion of a finite sum of reals is the sum of the coercions. -/
theorem coe_sum {ι : Type*} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A real factor distributes over a finite sum of reals, inside the extended reals. -/
theorem coe_mul_sum (r : ℝ) (g : Fin 16 → ℝ) : (r : EReal) * ∑ k, (g k : EReal) = ∑ k, (r : EReal) * (g k : EReal) := by
  rw [← coe_sum, ← EReal.coe_mul, Finset.mul_sum, coe_sum]
  exact Finset.sum_congr rfl fun k _ => EReal.coe_mul _ _

/-- THE LAW. For a real `a` and real `u k`: the factored arrangement `(2·a)·s₁ + s₂` over the two running sums is the
    direct sum of the sixteen summands `(2·a)·u k + u k · u k`, both started from 0. -/
theorem factored_eq_direct (a : EReal) (u : Fin 16 → EReal) (ha : ∃ r : ℝ, a = r) (hu : ∀ k, ∃ r : ℝ, u k = r) :
    (two * a) * runningSum 0 u + runningSum 0 (fun k => u k * u k)
      = 0 + ∑ k : Fin 16, ((two * a) * u k + u k * u k) := by
  obtain ⟨ar, rfl⟩ := ha
  choose ur hur using hu
  obtain rfl : u = fun k => (ur k : EReal) := funext hur
  rw [runningSum_eq, runningSum_eq, zero_add, zero_add, zero_add, Finset.sum_add_distrib, two_eq, ← EReal.coe_mul,
    coe_mul_sum]

/-- The result array as ONE function of the node features `x` and the gathered neighbour features `u`: at node `n`,
    feature `d`,  w · (0 + Σ_k ((2 · x n d) · u n k d + u n k d · u n k d)). -/
def combined (x : NodeFeat.Idx → EReal) (u : NbrFeat.Idx → EReal) : NodeFeat.Idx → EReal := fun i =>
  wgt * (0 + ∑ k : Fin 16, ((two * x i) * u (ix3 (i 0) k (i 1)) + u (ix3 (i 0) k (i 1)) * u (ix3 (i 0) k (i 1))))

/-- The factored arrangement at an index is `combined` there, when the node's entry and its sixteen neighbour entries are
    real. -/
theorem factored_eq_combined (x : NodeFeat.Idx → EReal) (u : NbrFeat.Idx → EReal) (i : NodeFeat.Idx)
    (hx : ∃ r : ℝ, x i = r) (hu : ∀ k : Fin 16, ∃ r : ℝ, u (ix3 (i 0) k (i 1)) = r) :
    wgt * ((two * x i) * runningSum 0 (fun k => u (ix3 (i 0) k (i 1)))
        + runningSum 0 (fun k => u (ix3 (i 0) k (i 1)) * u (ix3 (i 0) k (i 1))))
      = combined x u i := by
  unfold combined
  rw [factored_eq_direct (x i) (fun k => u (ix3 (i 0) k (i 1))) hx hu]

end Cert.NeighborCombine

end
-- ==== Proof.FiniteNodes.lean ====
/-
  From the precondition to "every node feature is a real number".

  The precondition is `all(|x| < +∞)`: a reduction by `and` over the whole comparison array that comes out 1, so the
  comparison is 1 at every index; there |x i| = max(x i, −x i) is below the f32 word 0x7F800000, which denotes +∞; and
  an extended real with max(a, −a) < ⊤ is neither ⊤ nor ⊥.
-/
import proofs.«417029_j11974368821731_4_alg».proof.Pre_finite_inputs
import proofs.«417029_j11974368821731_4_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.FiniteNodes

open Idealize.ShloMosaic Idealize.ShloMosaic.ValueIdx Cert.Pre_finite_inputs

instance : Subsingleton S_.Idx := ⟨fun a b => funext fun d => d.elim0⟩

/-- An extended real whose absolute value max(a, −a) is below +∞ is a real number. -/
theorem real_of_abs_lt_top (a : EReal) (h : max a (-a) < ⊤) : ∃ r : ℝ, a = r := by
  induction a using EReal.rec with
  | bot => simp at h
  | coe r => exact ⟨r, rfl⟩
  | top => simp at h

/-- The f32 word 0x7F800000 denotes +∞. -/
theorem inf_word : Ideal.ofBits .f32 0x7F800000#32 = ⊤ := by simp [Ideal.ofBits, Ideal.ieee]

/-- Under the precondition every entry of the float argument is a real number. -/
theorem entries_real (x : FVec Ideal S100000x128 .f32) (nbr : IVec S100000x16 32)
    (h : fn (F := Ideal) x nbr = fun _ => 1#1) (i : S100000x128.Idx) : ∃ r : ℝ, x i = r := by
  have h0 := congrFun h ix0
  dsimp only [fn] at h0
  have h1 := Host.reduce_andi_all _ _ _ _ _ h0 i
  have hb : broadcastInDim S100000x128 ![] Facts.bcast_S_S100000x128 (constant (F := Ideal) S_ .f32 0x7F800000#32) i = ⊤ :=
    (broadcastInDim_apply _ _ _ i (fun a => a.elim0) (fun a => a.elim0)).trans inf_word
  have h2 : Ideal.cmp .olt (max (x i) (-(x i))) ⊤ = 1#1 := by
    rw [← hb]; exact h1
  refine real_of_abs_lt_top (x i) ?_
  by_contra hlt
  simp [Ideal.cmp, hlt] at h2

end Cert.FiniteNodes
end
-- ==== Proof.KernelArray.lean ====
/-
  The idealized kernel's result array, as ONE function of its two argument arrays.

  The region works on 100 tiles of 1000 nodes. At a tile, the body loads the tile's node rows `x` ([1000,128]) and, one
  neighbour position `k` at a time, the slab `u[:, k, :]` of the tile's gathered rows ([1000,16,128]); it extends the running
  sums s₁ += u_k and s₂ += u_k·u_k sixteen times from 0 and stores  w · ((2·x)·s₁ + s₂).
  Here:
    * `tile_entry`: that stored tile, at row `r` and feature `d`, is  w · ((2·x r d)·runningSum 0 (k ↦ u r k d)
      + runningSum 0 (k ↦ u r k d · u r k d))  — each slab load read at its index: row `r`, position `k`, feature `d`;
    * `gathered`: the array the region finds as its second operand is the host's gather of the node rows at the
      (sign-wrapped) neighbour indices, so each of its entries IS an entry of the node array, hence real when those are;
    * `written_tile`: what tile `t` writes back is tile `t` of `combined x (gathered x nbr)`: node row 1000·t + r of the
      arrays is row r of the tile's blocks (the three index maps all send tile t to block t), and the law
      `factored_eq_combined` turns the factored arrangement into the direct sum;
    * the 100 tiles cover the result array (node n lies in tile n / 1000), so the array ends holding `combined …`.
-/
import proofs.«417029_j11974368821731_4_alg».proof.Proof.Gen.KernelIdeal.Value
import proofs.«417029_j11974368821731_4_alg».proof.Proof.NeighborCombine
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Combine

open Cert.KernelIdeal Cert.KernelIdeal.Gen Cert.KernelIdeal.Value Cert.NeighborCombine

/-! ## One tile -/

theorem zero_offsets : (![0, 0] : Fin 2 → Nat) = fun _ => 0 := funext fun a => by fin_cases a <;> rfl

/-- A slab `[:, k, :]` of the tile's gathered rows lies inside them only for a position `k` below 16. -/
theorem pos_lt {k : Nat}
    (inb : ∀ a : Fin S1000x16x128.rank, (![0, k, 0] : Fin 3 → Nat) a + S1000x1x128.size a ≤ S1000x16x128.size a) :
    k < 16 := inb 1

/-- The slab `u[:, k, :]` at row `z 0`, feature `z 2` is `u` at (row, k, feature). -/
theorem slab_apply (u : Vec Ideal S1000x16x128 .f32) (k : Nat) (inb) (z : S1000x1x128.Idx) :
    View.ld u (Rect.unit (s := S1000x16x128) ![0, k, 0] S1000x1x128.size inb) z = u (ix3 (z 0) ⟨k, pos_lt inb⟩ (z 2)) := by
  refine congrArg u (funext fun a => Fin.ext ?_)
  match a with
  | ⟨0, _⟩ => show 0 + 1 * (z 0).val = (z 0).val; omega
  | ⟨1, _⟩ => show k + 1 * (z 1).val = k; have h : (z 1).val < 1 := (z 1).isLt; omega
  | ⟨2, _⟩ => show 0 + 1 * (z 2).val = (z 2).val; omega

/-- The same, as an equation of functions of the slab's index. -/
theorem slab_eq (u : Vec Ideal S1000x16x128 .f32) (k : Nat) (inb) :
    View.ld u (Rect.unit (s := S1000x16x128) ![0, k, 0] S1000x1x128.size inb)
      = fun z : S1000x1x128.Idx => u (ix3 (z 0) ⟨k, pos_lt inb⟩ (z 2)) := funext fun z => slab_apply u k inb z

/-- THE TILE THE BODY STORES, at row `y 0` and feature `y 1`: the weight times ((2·x)·s₁ + s₂), the two running sums over
    the sixteen neighbour positions of that row and feature. -/
theorem tile_entry (x : Vec Ideal S1000x128 .f32) (u : Vec Ideal S1000x16x128 .f32) (y : S1000x128.Idx) :
    out0_2 x u y = wgt * ((two * x y) * runningSum 0 (fun k => u (ix3 (y 0) k (y 1)))
        + runningSum 0 (fun k => u (ix3 (y 0) k (y 1)) * u (ix3 (y 0) k (y 1)))) := by
  have e0 : ix2_0 y = y := funext fun a => by match a with | ⟨0, _⟩ => rfl | ⟨1, _⟩ => rfl
  unfold out0_2
  rw [canon2_eq]
  simp only [View.ld_unit_zero (S := S1000x128) zero_offsets, slab_eq]
  unfold runningSum
  simp only [E2, e0, Ideal.ofBits_def, Ideal.ofBits_zero_f32, Ideal.mulf_def, Ideal.addf_def]
  rfl

/-- A stored tile entry is `combined` of two whole arrays `X`, `U` at a node-feature index `i`, when the tile's row is the
    arrays' row at `i` and those entries are real. -/
theorem tile_entry_combined (X : NodeFeat.Idx → EReal) (U : NbrFeat.Idx → EReal)
    (x : Vec Ideal S1000x128 .f32) (u : Vec Ideal S1000x16x128 .f32) (y : S1000x128.Idx) (i : NodeFeat.Idx)
    (hx : x y = X i) (hu : ∀ k : Fin 16, u (ix3 (y 0) k (y 1)) = U (ix3 (i 0) k (i 1)))
    (hX : ∃ r : ℝ, X i = r) (hU : ∀ k : Fin 16, ∃ r : ℝ, U (ix3 (i 0) k (i 1)) = r) :
    out0_2 x u y = combined X U i := by
  rw [tile_entry, hx]
  simp only [hu]
  exact factored_eq_combined X U i hX hU

/-! ## The gathered neighbour rows -/

/-- The host's gather before the region: a negative neighbour index is wrapped by +100000, and row `nbr n k` (clamped into
    the table) of the node array `x` becomes entry (n, k, ·). -/
def gathered (x : FVec Ideal S100000x128 .f32) (nbr : IVec S100000x16 32) : FVec Ideal S100000x16x128 .f32 :=
  Host.gather gather_S100000x128_S100000x16x1_S100000x16x128_2_0_n_n_0_2_1128 x
    (broadcastInDim S100000x16x1 ![0, 1] bcast_S100000x16_S100000x16x1_0_1
      (select (cmpi .slt nbr (broadcastInDim S100000x16 ![] bcast_S_S100000x16 (constantI S_ 32 0#32)))
        (addi nbr (broadcastInDim S100000x16 ![] bcast_S_S100000x16 (constantI S_ 32 100000#32))) nbr))

/-- Every gathered entry is an entry of the node array: real when all of those are. -/
theorem gathered_real (x : FVec Ideal S100000x128 .f32) (nbr : IVec S100000x16 32) (hx : ∀ i, ∃ r : ℝ, x i = r)
    (j : S100000x16x128.Idx) : ∃ r : ℝ, gathered x nbr j = r := hx _

variable (m : (ℓ : Loc nD τ sig) → Buf (Elt Ideal) ℓ) (ρ : Dev nD → PrngReg)

/-- The region finds `gathered` of the two arguments in its second operand's array. -/
theorem region_gathered (c : Dev nD) :
    (V m c main_v6 : S100000x16x128.Idx → EReal)
      = gathered (m ((c : Thread nD τ).loc main_arg0)) (m ((c : Thread nD τ).loc main_arg1)) := by
  dsimp only [Gen.V, Gen.hostOps0]; after_results; rfl

/-! ## Tiles and array rows -/

/-- Decided over the 100 tiles: each of the three index maps sends tile `t` to block `t` along the node axis and to block 0
    along the others. -/
theorem tile_blocks : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The first argument, the node features, as an array of extended reals. -/
abbrev nodes (c : Dev nD) : NodeFeat.Idx → EReal := m ((c : Thread nD τ).loc main_arg0)
/-- The second argument, the neighbour indices. -/
abbrev nbrs (c : Dev nD) : IVec S100000x16 32 := m ((c : Thread nD τ).loc main_arg1)

/-- WHAT TILE `t` WRITES BACK is tile `t` of `combined x (gathered x nbr)`, `x` and `nbr` the two arguments, when every
    entry of `x` is real. -/
theorem written_tile (c : Dev nD) (hfin : ∀ i, ∃ r : ℝ, nodes m c i = r) (t : Fin cfg0.N) :
    (dats m 0 c).flushed 2 t = ((cfg0.win 2).blk t).view.read (Elt Ideal)
      (combined (nodes m c) (gathered (nodes m c) (nbrs m c))) := by
  rw [flushed2]
  obtain ⟨a0, a1, b0, b1, b2, o0, o1⟩ := tile_blocks t
  funext j
  show out0_2 (iblk m c 0 t) (iblk m c 1 t) j = combined _ _ (((cfg0.win 2).blk t).view.emb j)
  refine tile_entry_combined _ _ (iblk m c 0 t) (iblk m c 1 t) j _ ?_ ?_ (hfin _) (fun k => gathered_real _ _ hfin _)
  · -- row r of the tile's node block is node row 1000·t + r
    show V m c main_arg0 (((cfg0.win 0).blk t).view.emb j) = _
    refine (congrFun (V_main_arg0 m c) _).trans (congrArg (nodes m c) (funext fun a => Fin.ext ?_))
    match a with
    | ⟨0, _⟩ =>
      show win0_0.index t (0 : Fin 2) * 1000 + 1 * (j 0).val = win0_2.index t (0 : Fin 2) * 1000 + 1 * (j 0).val
      omega
    | ⟨1, _⟩ =>
      show win0_0.index t (1 : Fin 2) * 128 + 1 * (j 1).val = win0_2.index t (1 : Fin 2) * 128 + 1 * (j 1).val
      omega
  · -- row r, position k of the tile's gathered block is entry (1000·t + r, k, ·) of the gathered array
    intro k
    show V m c main_v6 (((cfg0.win 1).blk t).view.emb (ix3 (j 0) k (j 1))) = _
    refine (congrFun (region_gathered m c) _).trans (congrArg (gathered (nodes m c) (nbrs m c)) (funext fun a => Fin.ext ?_))
    match a with
    | ⟨0, _⟩ =>
      show win0_1.index t (0 : Fin 3) * 1000 + 1 * (j 0).val = win0_2.index t (0 : Fin 2) * 1000 + 1 * (j 0).val
      omega
    | ⟨1, _⟩ =>
      show win0_1.index t (1 : Fin 3) * 16 + 1 * k.val = k.val
      omega
    | ⟨2, _⟩ =>
      show win0_1.index t (2 : Fin 3) * 128 + 1 * (j 1).val = win0_2.index t (1 : Fin 2) * 128 + 1 * (j 1).val
      omega

/-- A node-feature index is in tile `t`'s block iff each coordinate is in the block's range. -/
theorem mem_tile (t : Fin cfg0.N) (i : S100000x128.Idx) :
    i ∈ ((cfg0.win 2).blk t).view.set ↔ ∀ a : Fin 2, win0_2.index t a * S1000x128.size a ≤ (i a).val
      ∧ (i a).val < win0_2.index t a * S1000x128.size a + S1000x128.size a := by
  show i ∈ ((View.whole main_v7).slice (win0_2.rect t)).set ↔ _
  rw [View.set_slice_whole, Rect.mem_set_unit]
  exact Iff.rfl

/-- Node `n` lies in tile `n / 1000`: the hundred tiles cover the result array. -/
theorem tiles_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 100 := N_0
  have ht : (i 0).val / 1000 < cfg0.N := by rw [hN]; omega
  obtain ⟨-, -, -, -, -, o0, o1⟩ := tile_blocks ⟨(i 0).val / 1000, ht⟩
  refine ⟨⟨(i 0).val / 1000, ht⟩, flush0_2 _, (mem_tile _ i).mpr fun a => ?_⟩
  match a with
  | ⟨0, _⟩ =>
    show win0_2.index ⟨(i 0).val / 1000, ht⟩ (0 : Fin 2) * 1000 ≤ (i 0).val
      ∧ (i 0).val < win0_2.index ⟨(i 0).val / 1000, ht⟩ (0 : Fin 2) * 1000 + 1000
    rw [o0]; show (i 0).val / 1000 * 1000 ≤ (i 0).val ∧ (i 0).val < (i 0).val / 1000 * 1000 + 1000; omega
  | ⟨1, _⟩ =>
    show win0_2.index ⟨(i 0).val / 1000, ht⟩ (1 : Fin 2) * 128 ≤ (i 1).val
      ∧ (i 1).val < win0_2.index ⟨(i 0).val / 1000, ht⟩ (1 : Fin 2) * 128 + 128
    rw [o1]; omega

/-- THE RESULT ARRAY after the run is `combined x (gathered x nbr)`. -/
theorem final_array (c : Dev nD) (hfin : ∀ i, ∃ r : ℝ, nodes m c i = r) :
    (dats m 0 c).arrAt 2 cfg0.N = combined (nodes m c) (gathered (nodes m c) (nbrs m c)) :=
  (dats m 0 c).arrAt_eq_of_cover 2 _ (fun t _ => written_tile m c hfin t) tiles_cover

/-- The kernel's run, read: the result array at `combined x (gathered x nbr)`, the arguments unchanged. -/
theorem run (hfin : ∀ (c : Dev nD) i, ∃ r : ℝ, nodes m c i = r) :
    θ_run defs (onTc (τ := τ) (main (F := Ideal))) ⟨m, fun _ => 0, ρ⟩ fun r => ∀ c : Dev nD,
      r.2.mem ((c : Thread nD τ).loc main_v7) = combined (nodes m c) (gathered (nodes m c) (nbrs m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_array m c (hfin c)), (h c).2⟩) (run_blocks m ρ)

end Cert.KernelIdeal.Combine

end
-- ==== Proof.ReferenceArray.lean ====
/-
  The idealized reference's result array as the same function `combined`.

  The reference multiplies the node rows by 2 (broadcast along a new neighbour axis), multiplies that by the gathered rows,
  adds the gathered rows' squares, sums over the neighbour axis from 0 and multiplies by the weight. Read one operation at
  a time at a node-feature index (n, d): the broadcasts read the node row back at (n, d), the sum's k-th term is read at
  (n, k, d), and the result is  w · (0 + Σ_k ((2 · x n d) · u n k d + u n k d · u n k d))  with `u` the gathered array —
  the defining expression of `combined`, so no algebra is needed on this side.
-/
import proofs.«417029_j11974368821731_4_alg».proof.Proof.Gen.ReferenceIdeal.Read
import proofs.«417029_j11974368821731_4_alg».proof.Proof.NeighborCombine

noncomputable section

open Idealize.ShloMosaic Idealize.ShloMosaic.TcCoe Idealize.SL.Sem Idealize.ShloMosaic.ValueIdx

namespace Cert.ReferenceIdeal.Combine

open Cert.ReferenceIdeal Cert.ReferenceIdeal.Gen Cert.ReferenceIdeal.Read Cert.NeighborCombine

/-- The k-th term of the sum at (n, d) sits at (n, k, d). -/
theorem term_index (i : S100000x128.Idx) (k : Fin 16) : idx_main_v14 i k = (ix3 (i 0) k (i 1) : S100000x16x128.Idx) :=
  funext fun a => by match a with | ⟨0, _⟩ => rfl | ⟨1, _⟩ => rfl | ⟨2, _⟩ => rfl

/-- The two broadcasts of the node rows, read at (n, k, d), read the node array back at (n, d). -/
theorem node_index (i : S100000x128.Idx) (k : Fin 16) :
    idx_main_v7 (idx_main_v10 (ix3 (i 0) k (i 1) : S100000x16x128.Idx)) = i :=
  funext fun a => by match a with | ⟨0, _⟩ => rfl | ⟨1, _⟩ => rfl

/-- THE REFERENCE'S RESULT is `combined` of the node array and the gathered array. -/
theorem result_eq (x : FVec Ideal S100000x128 .f32) (nbr : IVec S100000x16 32) :
    val_main_v16 (F := Ideal) x nbr = combined x (val_main_v6 (F := Ideal) x nbr) := by
  funext i
  rw [val_main_v16_apply, val_main_v15_apply, val_main_cst_2_apply, val_main_v14_apply, val_main_cst_1_apply]
  simp only [term_index, Ideal.ofBits_def, Ideal.ofBits_zero_f32, Ideal.mulf_def]
  unfold combined
  refine congrArg (fun s => wgt * (0 + s)) (Finset.sum_congr rfl fun k _ => ?_)
  rw [val_main_v13_apply, val_main_v11_apply, val_main_v12_apply, val_main_v10_apply, val_main_v9_apply,
    val_main_v8_apply, val_main_cst_apply, val_main_v7_apply, node_index]
  rfl

end Cert.ReferenceIdeal.Combine

end
-- ==== Proof.lean ====
/-
  The certificate of the neighbour-aggregation kernel against its jnp reference, over the extended reals.

  Both programs gather, for each of 100000 nodes, the feature rows of its 16 neighbours (the same host gather of the same
  arguments on both sides) and produce, at node n and feature d,
      w · Σ_k ( (2 · x n d) · u n k d + u n k d · u n k d ),     u the gathered rows, w the f32 word nearest 1/48.
  The reference adds the sixteen summands directly (`Cert.ReferenceIdeal.Combine.result_eq`). The kernel walks 100 tiles of
  1000 nodes and at each forms the running sums s₁ = Σ_k u_k, s₂ = Σ_k u_k² before taking w · ((2·x)·s₁ + s₂)
  (`Cert.KernelIdeal.Combine.run`); the two agree by distributivity of a REAL factor over a sum of reals
  (`Cert.NeighborCombine.factored_eq_direct`), which is where the precondition — every node feature finite, hence every
  gathered feature too — is used (`Cert.FiniteNodes.entries_real`). The three frames are the generated frame runs; the
  idealization rewrote nothing, so `preserves` is trivial.
-/
import proofs.«417029_j11974368821731_4_alg».proof.Defs
import proofs.«417029_j11974368821731_4_alg».proof.Proof.Gen.Kernel
import proofs.«417029_j11974368821731_4_alg».proof.Proof.Gen.Kernel.Skeleton
import proofs.«417029_j11974368821731_4_alg».proof.Proof.Gen.Kernel.Launch
import proofs.«417029_j11974368821731_4_alg».proof.Proof.Gen.Kernel.Points
import proofs.«417029_j11974368821731_4_alg».proof.Proof.Gen.Kernel.Frame
import proofs.«417029_j11974368821731_4_alg».proof.Proof.Gen.KernelIdeal
import proofs.«417029_j11974368821731_4_alg».proof.Proof.Gen.KernelIdeal.Skeleton
import proofs.«417029_j11974368821731_4_alg».proof.Proof.Gen.KernelIdeal.Launch
import proofs.«417029_j11974368821731_4_alg».proof.Proof.Gen.KernelIdeal.Points
import proofs.«417029_j11974368821731_4_alg».proof.Proof.Gen.KernelIdeal.Frame
import proofs.«417029_j11974368821731_4_alg».proof.Proof.Gen.ReferenceIdeal
import proofs.«417029_j11974368821731_4_alg».proof.Proof.Gen.KernelIdeal.Value
import proofs.«417029_j11974368821731_4_alg».proof.Proof.Gen.ReferenceIdeal.Run
import proofs.«417029_j11974368821731_4_alg».proof.Proof.Gen.ReferenceIdeal.Read
import proofs.«417029_j11974368821731_4_alg».proof.Proof.Gen.Pre_finite_inputs
import proofs.«417029_j11974368821731_4_alg».proof.Proof.NeighborCombine
import proofs.«417029_j11974368821731_4_alg».proof.Proof.FiniteNodes
import proofs.«417029_j11974368821731_4_alg».proof.Proof.KernelArray
import proofs.«417029_j11974368821731_4_alg».proof.Proof.ReferenceArray
import Idealize.ShloMosaic.Adequacy
import Idealize.ShloMosaic.Init

noncomputable section

namespace Cert.Proof

open Idealize.ShloMosaic Idealize.SL.Sem Cert.NeighborCombine

/-- The word-level kernel runs and keeps its arguments: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is host operations only: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both result arrays end at `combined x (gathered x nbr)` of the shared arguments. -/
theorem algebraic : Cert.algebraic_KernelIdeal_ReferenceIdeal := by
  intro m ρ m' ρ' hpre hagree
  have hfin : ∀ (c : Dev Cert.KernelIdeal.nD) i, ∃ r : ℝ, Cert.KernelIdeal.Combine.nodes m c i = r :=
    fun c i => Cert.FiniteNodes.entries_real _ _ (hpre c) i
  refine ⟨fun c => combined (Cert.KernelIdeal.Combine.nodes m c)
      (Cert.KernelIdeal.Combine.gathered (Cert.KernelIdeal.Combine.nodes m c) (Cert.KernelIdeal.Combine.nbrs m c)),
    Cert.KernelIdeal.Combine.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Combine.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
